-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel

variable [Facts]

def fn {F : FTy → Type} [FloatOps F] (main_arg0 : FVec F S4x2048x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  main_v3
-- ==== Kernel.lean ====
abbrev S4x2048x768 : Shape := ⟨3, ![4, 2048, 768]⟩
abbrev S4x16x2048x768 : Shape := ⟨4, ![4, 16, 2048, 768]⟩
abbrev S1x128x768 : Shape := ⟨3, ![1, 128, 768]⟩
abbrev S1x16x128x768 : Shape := ⟨4, ![1, 16, 128, 768]⟩
abbrev S128x768 : Shape := ⟨2, ![128, 768]⟩
abbrev S16x128x768 : Shape := ⟨3, ![16, 128, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x768, .f32⟩
  | .hbm, ⟨1, _⟩ => ⟨S4x16x2048x768, .f32⟩
  | .local _ .vmem, ⟨0, _⟩ => ⟨S1x128x768, .f32⟩
  | .local _ .vmem, ⟨1, _⟩ => ⟨S1x128x768, .f32⟩
  | .local _ .vmem, ⟨2, _⟩ => ⟨S1x16x128x768, .f32⟩
  | .local _ .vmem, ⟨3, _⟩ => ⟨S1x16x128x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  iota_S16x128x768_d0_w32 : S16x128x768.Iotas .tc 32 [0]
  shapeCasts_S128x768_S1x128x768 : S128x768.ShapeCasts S1x128x768
  broadcasts_S1x128x768_S16x128x768 : S1x128x768.Broadcasts S16x128x768
  natLt_1_32 : 1 < 32
  inb_S1x16x128x768_S1x16x128x768_0_0_0_0 : ∀ a, (![0, 0, 0, 0] : Fin 4 → Nat) a + S1x16x128x768.size a ≤ S1x16x128x768.size a
  h_S1x16x128x768 : 0 < S1x16x128x768.numel
  shapeCasts_S1x16x128x768_S16x128x768 : S1x16x128x768.ShapeCasts S16x128x768
  shapeCasts_S16x128x768_S1x16x128x768 : S16x128x768.ShapeCasts S1x16x128x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x2048x768.size a
  hwx0_0 : ∀ i : grid0.Coords, EltTy.bits .f32 = 32 ∨ (Rect.block (s := S4x2048x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x768.size a ≤ S4x16x2048x768.size a
  hwx0_1 : ∀ i : grid0.Coords, EltTy.bits .f32 = 32 ∨ (Rect.block (s := S4x16x2048x768) S1x16x128x768.size (cc0_transform_1 i) (hinb0_1 i)).WholeWords (EltTy.packing .f32)

variable [Facts₀]

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S_ : Shape := ⟨0, ![]⟩
abbrev S16 : Shape := ⟨1, ![16]⟩
abbrev S4x1x2048x768 : Shape := ⟨4, ![4, 1, 2048, 768]⟩
abbrev S1x16x1x1 : Shape := ⟨4, ![1, 16, 1, 1]⟩
abbrev S4x16x2048x768 : Shape := ⟨4, ![4, 16, 2048, 768]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S_, .f32⟩
  | .hbm, ⟨4, _⟩ => ⟨S4x2048x768, .f32⟩
  | .hbm, ⟨5, _⟩ => ⟨S4x2048x768, .f32⟩
  | .hbm, ⟨6, _⟩ => ⟨S_, .f32⟩
  | .hbm, ⟨7, _⟩ => ⟨S4x2048x768, .f32⟩
  | .hbm, ⟨8, _⟩ => ⟨S4x2048x768, .f32⟩
  | .hbm, ⟨9, _⟩ => ⟨S_, .f32⟩
  | .hbm, ⟨10, _⟩ => ⟨S4x2048x768, .f32⟩
  | .hbm, ⟨11, _⟩ => ⟨S4x2048x768, .f32⟩
  | .hbm, ⟨12, _⟩ => ⟨S4x2048x768, .i32⟩
  | .hbm, ⟨13, _⟩ => ⟨S16, .i32⟩
  | .hbm, ⟨14, _⟩ => ⟨S4x1x2048x768, .i32⟩
  | .hbm, ⟨15, _⟩ => ⟨S1x16x1x1, .i32⟩
  | .hbm, ⟨16, _⟩ => ⟨S4x16x2048x768, .i32⟩
  | .hbm, ⟨17, _⟩ => ⟨S4x16x2048x768, .i32⟩
  | .hbm, ⟨18, _⟩ => ⟨S4x16x2048x768, .i1⟩
  | .hbm, ⟨19, _⟩ => ⟨S4x16x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S_S4x2048x768 : S_.BroadcastsInDim S4x2048x768 (![] : Fin 0 → Fin S4x2048x768.rank)
  bcast_S4x2048x768_S4x1x2048x768_0_2_3 : S4x2048x768.BroadcastsInDim S4x1x2048x768 (![0, 2, 3] : Fin 3 → Fin S4x1x2048x768.rank)
  bcast_S16_S1x16x1x1_1 : S16.BroadcastsInDim S1x16x1x1 (![1] : Fin 1 → Fin S1x16x1x1.rank)
  bcast_S4x1x2048x768_S4x16x2048x768_0_1_2_3 : S4x1x2048x768.BroadcastsInDim S4x16x2048x768 (![0, 1, 2, 3] : Fin 4 → Fin S4x16x2048x768.rank)
  bcast_S1x16x1x1_S4x16x2048x768_0_1_2_3 : S1x16x1x1.BroadcastsInDim S4x16x2048x768 (![0, 1, 2, 3] : Fin 4 → Fin S4x16x2048x768.rank)

variable [Facts₀]

class Facts : Prop extends Facts₀ where

variable [Facts]
-- ==== Proof.SpikeSpec.lean ====
/-
  One-hot spike codes, as a function of the input array alone.

  For an activation `x` put `slot x = trunc (15 · σ(x))`, where `σ(x) = 1 / (1 + e^(-x))` is the logistic function, the
  product is taken on the extended reals and `trunc` is the conversion to a 32-bit signed integer (toward zero).  The result
  array has a time axis of length sixteen in second place:

      spikes x [b, t, s, d]  =  1  if  slot (x [b, s, d]) = t,   0  otherwise,

  the indicator being the unsigned reading of the one-bit comparison.  Nothing here needs `x` to be finite: every step is a
  function on the extended reals or on machine integers, and the two programs compared against this function differ from it
  only in how they spell three things, each settled below once and for all:

    * the logistic function as the quotient `1 / (1 + exp (-x))` written out with the number one given by its bit pattern;
    * the indicator obtained by first widening the comparison bit to thirty-two bits and reading THAT as a signed integer;
    * the counter along the time axis, written as a one-term positional sum `0 · 16 + t`.
-/
import Idealize.ShloMosaic.PureOps.Ideal
import Idealize.ShloMosaic.Lib.ValueIdx

noncomputable section

namespace Cert.SpikeSpec

open Idealize.ShloMosaic Idealize.ShloMosaic.ValueIdx

/-- The time slot of one activation: fifteen times its logistic, truncated to a 32-bit integer. -/
def slot (x : Ideal .f32) : BitVec 32 :=
  FloatOps.fptosi 32 (FloatOps.mulf (FloatOps.logistic x) (FloatOps.ofBits .f32 0x41700000#32))

/-- Whether the activation's slot is `t`, as the float `1` or `0`. -/
def fires (x : Ideal .f32) (t : Nat) : Ideal .f32 :=
  FloatOps.uitofp .f32 (IntOp.cmpi .eq (slot x) (BitVec.ofNat 32 t))

/-- The whole result: entry `[b, t, s, d]` says whether activation `[b, s, d]` fires at time `t`. -/
def spikes (x : (⟨3, ![4, 2048, 768]⟩ : Shape).Idx → Ideal .f32) :
    (⟨4, ![4, 16, 2048, 768]⟩ : Shape).Idx → Ideal .f32 :=
  fun j => fires (x (ix3 (j 0) (j 2) (j 3))) (j 1).val

/-- A single bit widened to thirty-two bits is non-negative, so its signed and the bit's unsigned reading agree. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by
    revert b; decide
  rw [h]; norm_cast

/-- The bit pattern `0x3F800000` is the number one. -/
theorem one_f32 : Ideal.ofBits .f32 0x3F800000#32 = (1 : EReal) := by
  simp [Ideal.ofBits, Ideal.ieee, -EReal.coe_mul]; norm_num

/-- The quotient `1 / (1 + exp (-x))`, spelt with the host's operations and the number one as a bit pattern, is the
    logistic function: by definition of the latter on the extended reals. -/
theorem host_logistic (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  rw [Ideal.ofBits_def, one_f32]; rfl

/-- A counter over one axis, written positionally, is the coordinate itself. -/
theorem counter_one_axis (n k : Nat) : BitVec.ofNat 32 (0 * n + k) = BitVec.ofNat 32 k := by
  rw [Nat.zero_mul, Nat.zero_add]

end Cert.SpikeSpec

end
-- ==== Proof.SpikeBody.lean ====
/-
  One entry of the block the kernel body stores, as a function of the block it loaded.

  The body loads a block `x` of shape [1, 128, 768], takes the logistic, scales by fifteen, truncates to an integer, lays the
  result along a new leading time axis of length sixteen by broadcasting, compares it with the time counter, and stores the
  comparison bit — widened to thirty-two bits and read as a signed integer — as a float, in a block of shape
  [1, 16, 128, 768].  Every step between the load and the store is either pointwise or a re-indexing:

    * the cast from [1, 128, 768] to [128, 768] and the cast back have only pointwise work between them, so together they
      are a cast there and back: the integer slots, as a [1, 128, 768] array, are the pointwise image of the loaded block;
    * the broadcast to [16, 128, 768] ignores the time coordinate;
    * the counter along axis 0 of [16, 128, 768] reads the time coordinate;
    * the cast to [1, 16, 128, 768] restores a unit axis in front.

  So entry `[0, t, s, d]` of the stored block says whether activation `x [0, s, d]` fires at time `t`
  (`Cert.SpikeSpec.fires`), the widened bit read signed being the bit read unsigned.
-/
import proofs.«138897_j33071248179953_1_alg».proof.Proof.Gen.KernelIdeal.Skeleton
import proofs.«138897_j33071248179953_1_alg».proof.Proof.SpikeSpec
import Idealize.ShloMosaic.Lib.Pipeline.Value
import Idealize.ShloMosaic.Lib.ValueIdx

noncomputable section

namespace Cert.KernelIdeal.SpikeBody

open Idealize.ShloMosaic Idealize.ShloMosaic.ValueIdx Cert.KernelIdeal Cert.KernelIdeal.Gen

/-- Before the last cast: entry `[t, s, d]` of the [16, 128, 768] value is the indicator that the loaded activation
    `[0, s, d]` fires at time `t`. -/
theorem timed_apply (x : Vec Ideal S1x128x768 .f32) (i : S16x128x768.Idx) :
    sitofp (F := Ideal) .f32 (extui 32 (cmpi .eq
        (broadcastTo S16x128x768
          (shapeCast S1x128x768 (fptosi (F := Ideal) 32 (mulf (F := Ideal) (logistic (F := Ideal) (shapeCast S128x768 x shapeCasts_S1x128x768_S128x768))
            (broadcast S128x768 (Scalar.ofBits (F := Ideal) .f32 0x41700000#32)))) shapeCasts_S128x768_S1x128x768)
          broadcasts_S1x128x768_S16x128x768)
        (iota .tc S16x128x768 32 [0] iota_S16x128x768_d0_w32)) natLt_1_32) i
      = Cert.SpikeSpec.fires (x (ix3 (0 : Fin 1) (i 1) (i 2))) (i 0).val := by
  -- everything between the two inner casts is pointwise, so they act on the loaded block as a cast there and back
  show FloatOps.sitofp (F := Ideal) .f32 ((IntOp.cmpi .eq
      (broadcastTo S16x128x768
        (fun k => FloatOps.fptosi 32 (FloatOps.mulf
          (FloatOps.logistic (shapeCast S1x128x768 (shapeCast S128x768 x shapeCasts_S1x128x768_S128x768) shapeCasts_S128x768_S1x128x768 k))
          (FloatOps.ofBits (F := Ideal) .f32 0x41700000#32)))
        broadcasts_S1x128x768_S16x128x768 i)
      (iota .tc S16x128x768 32 [0] iota_S16x128x768_d0_w32 i)).setWidth 32) = _
  rw [shapeCast_shapeCast, Cert.SpikeSpec.sitofp_widened_bit, iota_single_apply]
  -- the broadcast along time reads the [1, 128, 768] value at `(0, s, d)`
  rw [broadcastTo_apply _ broadcasts_S1x128x768_S16x128x768 i (ix3 (0 : Fin 1) (i 1) (i 2)) (fun a => by
    match a with
    | ⟨0, _⟩ => rfl
    | ⟨1, _⟩ => rfl
    | ⟨2, _⟩ => rfl)]
  rfl

/-- The stored block at `j = [0, t, s, d]` is the indicator that the loaded activation `[0, s, d]` fires at time `t`: the
    last cast restores a unit axis in front, so it reads the [16, 128, 768] value at `j`'s last three coordinates. -/
theorem stored_apply (x : Vec Ideal S1x128x768 .f32) (j : S1x16x128x768.Idx) :
    k0_pay1 (F := Ideal) x j = Cert.SpikeSpec.fires (x (ix3 (0 : Fin 1) (j 2) (j 3))) (j 1).val := by
  unfold k0_pay1
  exact (shapeCast_addUnit_apply ![16, 128, 768] _ _ j).trans (timed_apply x (fun a => j a.succ))

end Cert.KernelIdeal.SpikeBody

end
-- ==== Proof.SpikeKernel.lean ====
/-
  The kernel's result array, whole: it is the spike code of the input array.

  The grid has 4 × 16 points `(b, q)`.  Point `(b, q)` reads the input block `x [b, 128 q .. 128 q + 127, :]` and writes the
  output block `out [b, :, 128 q .. 128 q + 127, :]`: the whole time axis and the whole lane axis, one batch entry, 128 rows.
  These output blocks tile the array — index `[b, t, s, d]` lies in the block of point `(b, s / 128)` and in no other — and
  each is written back after its point.

  What a point writes at local index `[0, t, s', d]` is the indicator that the loaded activation `[0, s', d]` fires at time
  `t` (the body, entry by entry).  The loaded activation is `x [b, 128 q + s', d]`, and the local index sits at
  `[b, t, 128 q + s', d]` of the array: the input block and the output block move together over the grid (first block
  coordinate equal, the input's row-block the output's third, every other block coordinate zero — facts about the two
  index maps, decided over the 64 points).  So each point writes its block of ONE function of the input array,
  `Cert.SpikeSpec.spikes`, and since the blocks cover the array, the array ends holding that function.
-/
import proofs.«138897_j33071248179953_1_alg».proof.Proof.Gen.KernelIdeal.Value
import proofs.«138897_j33071248179953_1_alg».proof.Proof.SpikeBody
import Idealize.ShloMosaic.Lib.Pipeline.Value
import Idealize.ShloMosaic.Lib.ValueIdx

noncomputable section

namespace Cert.KernelIdeal.SpikeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The two index maps over the grid: the input block's batch and row-block coordinates are the output block's first and
    third, and every other block coordinate is zero. -/
theorem blocks_move_together : ∀ t : Fin cfg0.N,
    win0_0.index t (0 : Fin 3) = win0_1.index t (0 : Fin 4)
    ∧ win0_0.index t (1 : Fin 3) = win0_1.index t (2 : Fin 4)
    ∧ win0_0.index t (2 : Fin 3) = 0
    ∧ win0_1.index t (1 : Fin 4) = 0
    ∧ win0_1.index t (3 : Fin 4) = 0 :=
  (by decide +kernel : ∀ t : Fin grid0.N, _)

/-- Every (batch entry, row-block) pair is some point's output block. -/
theorem every_block_written : ∀ (b : Fin 4) (q : Fin 16), ∃ t : Fin cfg0.N, win0_1.index t = ![b.val, 0, q.val, 0] :=
  (by decide +kernel : ∀ (b : Fin 4) (q : Fin 16), ∃ t : Fin grid0.N, win0_1.index t = ![b.val, 0, q.val, 0])

/-- What point `t` writes back is block `t` of the spike code of the input array. -/
theorem written_eq (c : Dev nD) (t : Fin cfg0.N) :
    (dats m 0 c).flushed 1 t = ((cfg0.win 1).blk t).view.read (Elt Ideal) (Cert.SpikeSpec.spikes (V m c main_arg0)) := by
  rw [Cert.KernelIdeal.Value.flushed1]
  unfold out0_1
  rw [View.canon_unit_zero zeros4]
  simp only [View.ld_unit_zero (S := S1x128x768) zeros3]
  obtain ⟨e0, e1, e2, e3, e4⟩ := blocks_move_together t
  funext j
  show k0_pay1 (F := Ideal) (iblk m c 0 t) j = Cert.SpikeSpec.spikes (V m c main_arg0) (((cfg0.win 1).blk t).view.emb j)
  refine (Cert.KernelIdeal.SpikeBody.stored_apply (iblk m c 0 t) j).trans ?_
  show Cert.SpikeSpec.fires (V m c main_arg0 (((cfg0.win 0).blk t).view.emb (ix3 (0 : Fin 1) (j 2) (j 3)))) (j 1).val
    = Cert.SpikeSpec.fires (V m c main_arg0 (ix3 ((((cfg0.win 1).blk t).view.emb j) 0) ((((cfg0.win 1).blk t).view.emb j) 2) ((((cfg0.win 1).blk t).view.emb j) 3)))
        ((((cfg0.win 1).blk t).view.emb j) 1).val
  have hrow : ((cfg0.win 0).blk t).view.emb (ix3 (0 : Fin 1) (j 2) (j 3))
      = ix3 ((((cfg0.win 1).blk t).view.emb j) 0) ((((cfg0.win 1).blk t).view.emb j) 2) ((((cfg0.win 1).blk t).view.emb j) 3) := by
    funext a; apply Fin.ext
    match a with
    | ⟨0, _⟩ => show win0_0.index t (0 : Fin 3) * 1 + 1 * 0 = win0_1.index t (0 : Fin 4) * 1 + 1 * (j 0).val; have hj : (j 0).val < 1 := (j 0).isLt; omega
    | ⟨1, _⟩ => show win0_0.index t (1 : Fin 3) * 128 + 1 * (j 2).val = win0_1.index t (2 : Fin 4) * 128 + 1 * (j 2).val; omega
    | ⟨2, _⟩ => show win0_0.index t (2 : Fin 3) * 768 + 1 * (j 3).val = win0_1.index t (3 : Fin 4) * 768 + 1 * (j 3).val; omega
  have htime : (j 1).val = ((((cfg0.win 1).blk t).view.emb j) 1).val := by
    show (j 1).val = win0_1.index t (1 : Fin 4) * 16 + 1 * (j 1).val; omega
  rw [hrow, ← htime]
  rfl

/-- An index of the array is in point `t`'s output block iff each coordinate is in the block's range on its axis. -/
theorem mem_block (t : Fin cfg0.N) (i : S4x16x2048x768.Idx) :
    i ∈ ((cfg0.win 1).blk t).view.set ↔ ∀ a : Fin 4, win0_1.index t a * S1x16x128x768.size a ≤ (i a).val ∧ (i a).val < win0_1.index t a * S1x16x128x768.size a + S1x16x128x768.size a := by
  show i ∈ ((View.whole main_v0).slice (win0_1.rect t)).set ↔ _
  rw [View.set_slice_whole, Rect.mem_set_unit]
  exact Iff.rfl

/-- The output blocks cover the array: `[b, t, s, d]` is in the block of the point with block index `(b, 0, s / 128, 0)`. -/
theorem covered (i : S4x16x2048x768.Idx) :
    ∃ t : Fin cfg0.N, (cfg0.win 1).flush t = true ∧ i ∈ ((cfg0.win 1).blk t).view.set := by
  have hi0 : (i 0).val < 4 := (i 0).isLt
  have hi1 : (i 1).val < 16 := (i 1).isLt
  have hi2 : (i 2).val < 2048 := (i 2).isLt
  have hi3 : (i 3).val < 768 := (i 3).isLt
  obtain ⟨t, ht⟩ := every_block_written ⟨(i 0).val, hi0⟩ ⟨(i 2).val / 128, by omega⟩
  have q0 : win0_1.index t (0 : Fin 4) = (i 0).val := congrFun ht 0
  have q1 : win0_1.index t (1 : Fin 4) = 0 := congrFun ht 1
  have q2 : win0_1.index t (2 : Fin 4) = (i 2).val / 128 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 128 ≤ (i 2).val ∧ (i 2).val < win0_1.index t (2 : Fin 4) * 128 + 128; omega
  | ⟨3, _⟩ => show win0_1.index t (3 : Fin 4) * 768 ≤ (i 3).val ∧ (i 3).val < win0_1.index t (3 : Fin 4) * 768 + 768; omega

/-- The output array after the run is the spike code of the input array as launched. -/
theorem result_eq (c : Dev nD) :
    (dats m 0 c).arrAt 1 cfg0.N = Cert.SpikeSpec.spikes (m ((c : Thread nD τ).loc main_arg0)) :=
  (dats m 0 c).arrAt_eq_of_cover 1 (Cert.SpikeSpec.spikes (V m c main_arg0)) (fun t _ => written_eq m c t) covered

/-- Every weakly fair execution of the kernel program ends with the result array at the spike code of the input and the
    input unchanged. -/
theorem run : θ_run defs (onTc (τ := τ) (main (F := Ideal))) ⟨m, fun _ => 0, ρ⟩ fun r => ∀ c : Dev nD,
      r.2.mem ((c : Thread nD τ).loc main_v0) = Cert.SpikeSpec.spikes (m ((c : Thread nD τ).loc main_arg0))
      ∧ r.2.mem ((c : Thread nD τ).loc main_arg0) = m ((c : Thread nD τ).loc main_arg0) :=
  (θ_run defs _ _).mono (fun r h c => ⟨(h c).1.trans (result_eq m c), (h c).2⟩)
    (Cert.KernelIdeal.Value.run_blocks m ρ)

end Cert.KernelIdeal.SpikeValue

end
-- ==== Proof.SpikeRef.lean ====
/-
  The reference program's result is the spike code of its input.

  The reference computes, on whole arrays: the logistic as `1 / (1 + exp (-x))`; times fifteen; truncated to integers; given a
  unit time axis and broadcast along it to [4, 16, 2048, 768]; compared with the counter `0 .. 15` placed on the time axis and
  broadcast over the other three; the comparison bit read unsigned as a float.  Read at an index `[b, t, s, d]`, the broadcasts
  of the integer array forget `t` and those of the counter keep only `t`, so the entry is the indicator that the slot of
  `x [b, s, d]` equals `t`; the quotient is the logistic function by definition.
-/
import proofs.«138897_j33071248179953_1_alg».proof.Proof.Gen.ReferenceIdeal.Read
import proofs.«138897_j33071248179953_1_alg».proof.Proof.SpikeSpec
import Idealize.ShloMosaic.Lib.ValueIdx

noncomputable section

namespace Cert.ReferenceIdeal.SpikeRef

open Idealize.ShloMosaic Idealize.ShloMosaic.ValueIdx Cert.ReferenceIdeal Cert.ReferenceIdeal.Read

/-- The reference's last stage, as a function of the input array, is the spike code. -/
theorem reference_eq (x : (⟨S4x2048x768, .f32⟩ : BufTy).Contents (Elt Ideal)) :
    val_main_v15 (F := Ideal) x = Cert.SpikeSpec.spikes x := by
  funext i
  rw [val_main_v15_apply, val_main_v14_apply, val_main_v12_apply, val_main_v10_apply, val_main_v8_apply, val_main_v7_apply,
    val_main_v5_apply, val_main_v4_apply, val_main_cst_0_apply, val_main_v3_apply, val_main_v2_apply, val_main_cst_apply,
    val_main_v1_apply, val_main_v0_apply, val_main_v6_apply, val_main_cst_1_apply, val_main_v13_apply, val_main_v11_apply,
    val_main_v9_apply, Cert.SpikeSpec.host_logistic]
  have e : idx_main_v10 (idx_main_v12 i) = ix3 (i 0) (i 2) (i 3) :=
    funext fun a => Fin.ext (by
      match a with
      | ⟨0, _⟩ => rfl
      | ⟨1, _⟩ => rfl
      | ⟨2, _⟩ => rfl)
  rw [e]
  rfl

end Cert.ReferenceIdeal.SpikeRef

end
-- ==== Proof.lean ====
/-
  Spike-time one-hot coding: a pipelined kernel against its array-level reference.

  Both programs take `x : f32[4, 2048, 768]` and produce `f32[4, 16, 2048, 768]` whose entry `[b, t, s, d]` is `1` when
  `trunc (15 · σ(x [b, s, d])) = t` and `0` otherwise, `σ` the logistic function (`Cert.SpikeSpec.spikes`).

  * The kernel runs on a 4 × 16 grid, one batch entry and 128 rows per point, all sixteen time steps and all 768 lanes in each
    output block; the blocks tile the output, and each point writes its block of the spike code of the whole input
    (Proof/SpikeBody.lean for one entry of the stored block, Proof/SpikeKernel.lean for the blocks and the cover).
  * The reference computes the same on whole arrays, the logistic spelt `1 / (1 + exp (-x))`, the time axis introduced by
    broadcasts (Proof/SpikeRef.lean).

  On the extended reals the two agree at every input, finite or not: the logistic function IS that quotient, the scale is the
  same number on both sides, truncation and comparison are the same operations, and a comparison bit widened to 32 bits and
  read signed is the bit read unsigned.  So the precondition is never opened.  The idealization rewrote nothing in the kernel,
  so there is nothing to preserve.  The three frames are the generated frame runs (the reference's with its result dropped).
-/
import proofs.«138897_j33071248179953_1_alg».proof.Defs
import proofs.«138897_j33071248179953_1_alg».proof.Proof.Gen.Kernel
import proofs.«138897_j33071248179953_1_alg».proof.Proof.Gen.Kernel.Skeleton
import proofs.«138897_j33071248179953_1_alg».proof.Proof.Gen.Kernel.Launch
import proofs.«138897_j33071248179953_1_alg».proof.Proof.Gen.Kernel.Points
import proofs.«138897_j33071248179953_1_alg».proof.Proof.Gen.Kernel.Frame
import proofs.«138897_j33071248179953_1_alg».proof.Proof.Gen.KernelIdeal
import proofs.«138897_j33071248179953_1_alg».proof.Proof.Gen.KernelIdeal.Skeleton
import proofs.«138897_j33071248179953_1_alg».proof.Proof.Gen.KernelIdeal.Launch
import proofs.«138897_j33071248179953_1_alg».proof.Proof.Gen.KernelIdeal.Points
import proofs.«138897_j33071248179953_1_alg».proof.Proof.Gen.KernelIdeal.Frame
import proofs.«138897_j33071248179953_1_alg».proof.Proof.Gen.ReferenceIdeal
import proofs.«138897_j33071248179953_1_alg».proof.Proof.Gen.Pre_finite_inputs
import proofs.«138897_j33071248179953_1_alg».proof.Proof.Gen.KernelIdeal.Value
import proofs.«138897_j33071248179953_1_alg».proof.Proof.Gen.ReferenceIdeal.Run
import proofs.«138897_j33071248179953_1_alg».proof.Proof.Gen.ReferenceIdeal.Read
import proofs.«138897_j33071248179953_1_alg».proof.Proof.SpikeKernel
import proofs.«138897_j33071248179953_1_alg».proof.Proof.SpikeRef
import Idealize.ShloMosaic.Adequacy
import Idealize.ShloMosaic.Init

noncomputable section

namespace Cert.Proof

open Idealize.ShloMosaic Idealize.ShloMosaic.TcCoe Idealize.SL.Sem

/-- From memories that agree on the input, the kernel's result array and the reference's end at the same function of it:
    the spike code. -/
theorem algebraic : Cert.algebraic_KernelIdeal_ReferenceIdeal := by
  intro m ρ m' ρ' _ hagree
  refine ⟨_, Cert.KernelIdeal.SpikeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.SpikeRef.reference_eq, hagree c]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
